-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x10 : Shape := ⟨2, ![131072, 10]⟩
abbrev S128x10 : Shape := ⟨2, ![128, 10]⟩
abbrev S128x128 : Shape := ⟨2, ![128, 128]⟩
abbrev S_ : Shape := ⟨0, ![]⟩

class Facts : Prop where
  bcast_S_S131072x10 : S_.BroadcastsInDim S131072x10 (![] : Fin 0 → Fin S131072x10.rank)
  reducesTo_S131072x10_S_d0_1 : S131072x10.ReducesTo [0, 1] S_
  h_S_ : 0 < S_.numel
  bcast_S_S128x10 : S_.BroadcastsInDim S128x10 (![] : Fin 0 → Fin S128x10.rank)
  reducesTo_S128x10_S_d0_1 : S128x10.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S131072x10 .f32) (main_arg1 : FVec F S128x10 .f32) (main_arg2 : FVec F S128x128 .f32) : IVec S_ 1 :=
  let main_v0 : FVec F S131072x10 .f32 := Host.absf main_arg0
  let main_cst : FVec F S_ .f32 := constant S_ .f32 0x7F800000#32
  let main_v1 : FVec F S131072x10 .f32 := broadcastInDim S131072x10 ![] bcast_S_S131072x10 main_cst
  let main_v2 : IVec S131072x10 1 := cmpf .olt main_v0 main_v1
  let main_c : IVec S_ 1 := constantI S_ 1 1#1
  let main_v3 : IVec S_ 1 := (fun x v => Host.reduce IntOp.andi x v reducesTo_S131072x10_S_d0_1 h_S_) main_v2 main_c
  let main_v4 : FVec F S128x10 .f32 := Host.absf main_arg1
  let main_cst_0 : FVec F S_ .f32 := constant S_ .f32 0x7F800000#32
  let main_v5 : FVec F S128x10 .f32 := broadcastInDim S128x10 ![] bcast_S_S128x10 main_cst_0
  let main_v6 : IVec S128x10 1 := cmpf .olt main_v4 main_v5
  let main_c_1 : IVec S_ 1 := constantI S_ 1 1#1
  let main_v7 : IVec S_ 1 := (fun x v => Host.reduce IntOp.andi x v reducesTo_S128x10_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S131072x10 : Shape := ⟨2, ![131072, 10]⟩
abbrev S128x10 : Shape := ⟨2, ![128, 10]⟩
abbrev S128x128 : Shape := ⟨2, ![128, 128]⟩
abbrev S10x128 : Shape := ⟨2, ![10, 128]⟩
abbrev S131072x128 : Shape := ⟨2, ![131072, 128]⟩
abbrev S1024x10 : Shape := ⟨2, ![1024, 10]⟩
abbrev S1024x128 : Shape := ⟨2, ![1024, 128]⟩
abbrev S1024x1 : Shape := ⟨2, ![1024, 1]⟩
abbrev S1x128 : Shape := ⟨2, ![1, 128]⟩

abbrev nBuf : Space → Nat
  | .hbm => 5
  | .vmem => 6
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S10x128, .f32⟩
  | .hbm, ⟨4, _⟩ => ⟨S131072x128, .f32⟩
  | .local _ .vmem, ⟨0, _⟩ => ⟨S1024x10, .f32⟩
  | .local _ .vmem, ⟨1, _⟩ => ⟨S1024x10, .f32⟩
  | .local _ .vmem, ⟨2, _⟩ => ⟨S10x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | _, _ => ⟨S131072x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x10_S10x128_1_0 : S128x10.Transposes [1, 0] S10x128
  inb_S1024x10_S1024x1_0_0 : ∀ a, (![0, 0] : Fin 2 → Nat) a + S1024x1.size a ≤ S1024x10.size a
  h_S1024x1 : 0 < S1024x1.numel
  inb_S10x128_S1x128_0_0 : ∀ a, (![0, 0] : Fin 2 → Nat) a + S1x128.size a ≤ S10x128.size a
  h_S1x128 : 0 < S1x128.numel
  shapeCasts_S1x128_S1x128 : S1x128.ShapeCasts S1x128
  broadcasts_S1024x1_S1024x128 : S1024x1.Broadcasts S1024x128
  broadcasts_S1x128_S1024x128 : S1x128.Broadcasts S1024x128
  inb_S1024x10_S1024x1_0_1 : ∀ a, (![0, 1] : Fin 2 → Nat) a + S1024x1.size a ≤ S1024x10.size a
  inb_S10x128_S1x128_1_0 : ∀ a, (![1, 0] : Fin 2 → Nat) a + S1x128.size a ≤ S10x128.size a
  inb_S1024x10_S1024x1_0_2 : ∀ a, (![0, 2] : Fin 2 → Nat) a + S1024x1.size a ≤ S1024x10.size a
  inb_S10x128_S1x128_2_0 : ∀ a, (![2, 0] : Fin 2 → Nat) a + S1x128.size a ≤ S10x128.size a
  inb_S1024x10_S1024x1_0_3 : ∀ a, (![0, 3] : Fin 2 → Nat) a + S1024x1.size a ≤ S1024x10.size a
  inb_S10x128_S1x128_3_0 : ∀ a, (![3, 0] : Fin 2 → Nat) a + S1x128.size a ≤ S10x128.size a
  inb_S1024x10_S1024x1_0_4 : ∀ a, (![0, 4] : Fin 2 → Nat) a + S1024x1.size a ≤ S1024x10.size a
  inb_S10x128_S1x128_4_0 : ∀ a, (![4, 0] : Fin 2 → Nat) a + S1x128.size a ≤ S10x128.size a
  inb_S1024x10_S1024x1_0_5 : ∀ a, (![0, 5] : Fin 2 → Nat) a + S1024x1.size a ≤ S1024x10.size a
  inb_S10x128_S1x128_5_0 : ∀ a, (![5, 0] : Fin 2 → Nat) a + S1x128.size a ≤ S10x128.size a
  inb_S1024x10_S1024x1_0_6 : ∀ a, (![0, 6] : Fin 2 → Nat) a + S1024x1.size a ≤ S1024x10.size a
  inb_S10x128_S1x128_6_0 : ∀ a, (![6, 0] : Fin 2 → Nat) a + S1x128.size a ≤ S10x128.size a
  inb_S1024x10_S1024x1_0_7 : ∀ a, (![0, 7] : Fin 2 → Nat) a + S1024x1.size a ≤ S1024x10.size a
  inb_S10x128_S1x128_7_0 : ∀ a, (![7, 0] : Fin 2 → Nat) a + S1x128.size a ≤ S10x128.size a
  inb_S1024x10_S1024x1_0_8 : ∀ a, (![0, 8] : Fin 2 → Nat) a + S1024x1.size a ≤ S1024x10.size a
  inb_S10x128_S1x128_8_0 : ∀ a, (![8, 0] : Fin 2 → Nat) a + S1x128.size a ≤ S10x128.size a
  inb_S1024x10_S1024x1_0_9 : ∀ a, (![0, 9] : Fin 2 → Nat) a + S1024x1.size a ≤ S1024x10.size a
  inb_S10x128_S1x128_9_0 : ∀ a, (![9, 0] : Fin 2 → Nat) a + S1x128.size a ≤ S10x128.size a
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S131072x10.size a
  hwx0_0 : ∀ i : grid0.Coords, EltTy.bits .f32 = 32 ∨ (Rect.block (s := S131072x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S131072x128.size a
  hwx0_3 : ∀ i : grid0.Coords, EltTy.bits .f32 = 32 ∨ (Rect.block (s := S131072x128) S1024x128.size (cc0_transform_3 i) (hinb0_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x10 : Shape := ⟨2, ![131072, 10]⟩
abbrev S128x10 : Shape := ⟨2, ![128, 10]⟩
abbrev S128x128 : Shape := ⟨2, ![128, 128]⟩
abbrev S131072x1x10 : Shape := ⟨3, ![131072, 1, 10]⟩
abbrev S1x128x10 : Shape := ⟨3, ![1, 128, 10]⟩
abbrev S131072x128x10 : Shape := ⟨3, ![131072, 128, 10]⟩
abbrev S_ : Shape := ⟨0, ![]⟩
abbrev S131072x128 : Shape := ⟨2, ![131072, 128]⟩

abbrev nBuf : Space → Nat
  | .hbm => 17
  | .vmem => 0
  | .smem => 0
  | _ => 0

abbrev bufTy : (tb : Table) → Fin (tcTables nBuf tb) → BufTy
  | .hbm, ⟨0, _⟩ => ⟨S131072x10, .f32⟩
  | .hbm, ⟨1, _⟩ => ⟨S128x10, .f32⟩
  | .hbm, ⟨2, _⟩ => ⟨S128x128, .f32⟩
  | .hbm, ⟨3, _⟩ => ⟨S131072x1x10, .f32⟩
  | .hbm, ⟨4, _⟩ => ⟨S1x128x10, .f32⟩
  | .hbm, ⟨5, _⟩ => ⟨S131072x128x10, .f32⟩
  | .hbm, ⟨6, _⟩ => ⟨S131072x128x10, .f32⟩
  | .hbm, ⟨7, _⟩ => ⟨S131072x128x10, .f32⟩
  | .hbm, ⟨8, _⟩ => ⟨S131072x128x10, .f32⟩
  | .hbm, ⟨9, _⟩ => ⟨S_, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x128, .f32⟩
  | .hbm, ⟨16, _⟩ => ⟨S131072x128, .f32⟩
  | _, _ => ⟨S131072x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S131072x10_S131072x1x10_0_2 : S131072x10.BroadcastsInDim S131072x1x10 (![0, 2] : Fin 2 → Fin S131072x1x10.rank)
  bcast_S128x10_S1x128x10_1_2 : S128x10.BroadcastsInDim S1x128x10 (![1, 2] : Fin 2 → Fin S1x128x10.rank)
  bcast_S131072x1x10_S131072x128x10_0_1_2 : S131072x1x10.BroadcastsInDim S131072x128x10 (![0, 1, 2] : Fin 3 → Fin S131072x128x10.rank)
  bcast_S1x128x10_S131072x128x10_0_1_2 : S1x128x10.BroadcastsInDim S131072x128x10 (![0, 1, 2] : Fin 3 → Fin S131072x128x10.rank)
  reducesTo_S131072x128x10_S131072x128_d2 : S131072x128x10.ReducesTo [2] S131072x128
  h_S_ : 0 < S_.numel
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The value both programs compute, as ONE function of the three argument arrays, and the laws of the extended reals
  that join the two ways it is spelt.

  With `x : [131072, 10]` the input points, `p : [128, 10]` the grid points and `C : [128, 128]` the inverse Cholesky
  factor, the result at row `n` and column `j` is

      Σ_k  exp (-(Σ_d |x[n, d] - p[k, d]|)) · C[k, j]

  — the Laplace product kernel `exp (-‖x_n - p_k‖₁)` between input point `n` and grid point `k`, contracted against
  column `j` of `C`. The absolute value of an extended real is the larger of the number and its negative.

  The two spellings differ only by
    • the distance's ten terms added one after another from the left, against their sum over `Fin 10` started from `0`;
    • the distance negated as `0 - a`, against `-a` followed by a division by the lengthscale `1`;
  none of which needs a finite argument: addition of extended reals is commutative and associative everywhere,
  `0 - a = -a` everywhere, and division by the real `1` is the product with `1`.
-/
import Idealize.ShloMosaic.PureOps.Ideal.Laws
import Idealize.ShloMosaic.Lib.ValueIdx
import Idealize.ShloMosaic.Lib.IdealHost

noncomputable section

namespace Cert.Tmk

open Idealize.ShloMosaic Idealize.ShloMosaic.ValueIdx

/-- One coordinate's contribution to the L1 distance: `|a - b|`, as the larger of `a - b` and its negative. -/
def gap (a b : EReal) : EReal := max (a - b) (-(a - b))

/-- The Laplace product kernel of two points of the 10-dimensional cube given by their coordinates:
    `exp (-(Σ_d |u d - v d|))`. -/
def lap (u v : Fin 10 → EReal) : EReal :=
  Ideal.exp (-(∑ d : Fin 10, gap (u d) (v d)))

/-- The result array: at row `n`, column `j`, the kernel row of input point `n` against the 128 grid points,
    contracted with column `j` of `C`. -/
def G (x : (⟨2, ![131072, 10]⟩ : Shape).Idx → EReal) (p : (⟨2, ![128, 10]⟩ : Shape).Idx → EReal)
    (C : (⟨2, ![128, 128]⟩ : Shape).Idx → EReal) : (⟨2, ![131072, 128]⟩ : Shape).Idx → EReal :=
  fun i => ∑ k : Fin 128, lap (fun d => x (ix2 (i 0) d)) (fun d => p (ix2 k d)) * C (ix2 k (i 1))

/-- `G` at explicit coordinates. -/
theorem G_apply (x : (⟨2, ![131072, 10]⟩ : Shape).Idx → EReal) (p : (⟨2, ![128, 10]⟩ : Shape).Idx → EReal)
    (C : (⟨2, ![128, 128]⟩ : Shape).Idx → EReal) (n : Fin 131072) (j : Fin 128) :
    G x p C (ix2 n j) = ∑ k : Fin 128, lap (fun d => x (ix2 n d)) (fun d => p (ix2 k d)) * C (ix2 k j) := rfl

/-! ## Sums over ten coordinates -/

/-- A sum over nine indices, its terms added from the left. -/
theorem sum_nine (f : Fin 9 → EReal) :
    ∑ d : Fin 9, f d = f 0 + f 1 + f 2 + f 3 + f 4 + f 5 + f 6 + f 7 + f 8 := by
  rw [Fin.sum_univ_castSucc, Fin.sum_univ_eight]; rfl

/-- A sum over ten indices, its terms added from the left. -/
theorem sum_ten (f : Fin 10 → EReal) :
    ∑ d : Fin 10, f d = f 0 + f 1 + f 2 + f 3 + f 4 + f 5 + f 6 + f 7 + f 8 + f 9 := by
  rw [Fin.sum_univ_castSucc, sum_nine]; rfl

/-! ## The two spellings of the kernel entry -/

/-- Division by the real number one changes nothing, at the infinities too. -/
theorem div_one (a : EReal) : Ideal.div a 1 = a := by
  have h := Ideal.div_coe (y := 1) one_ne_zero a
  rw [one_div, inv_one, EReal.coe_one, mul_one] at h
  exact h

/-- The first spelling: the ten gaps added from the left, the sum taken from zero, then the exponential. -/
theorem lap_of_left_sum (u v : Fin 10 → EReal) :
    Ideal.exp (0 - (gap (u 0) (v 0) + gap (u 1) (v 1) + gap (u 2) (v 2) + gap (u 3) (v 3) + gap (u 4) (v 4)
      + gap (u 5) (v 5) + gap (u 6) (v 6) + gap (u 7) (v 7) + gap (u 8) (v 8) + gap (u 9) (v 9))) = lap u v := by
  unfold lap
  rw [zero_sub, sum_ten (fun d => gap (u d) (v d))]

/-- The second spelling: the sum over the ten coordinates started from zero, negated, divided by the lengthscale one,
    then the exponential. -/
theorem lap_of_scaled_sum (u v : Fin 10 → EReal) :
    Ideal.exp (Ideal.div (-(0 + ∑ d : Fin 10, gap (u d) (v d))) 1) = lap u v := by
  unfold lap
  rw [div_one, zero_add]

end Cert.Tmk

end
-- ==== Proof.Block.lean ====
/-
  What one grid point of the kernel leaves in its output block, entry by entry.

  At a grid point the body holds a block `x0 : [1024, 10]` of input points, the transposed grid points
  `x1 : [10, 128]` (coordinate `d` of grid point `k` at `x1[d, k]`) and `x2 : [128, 128]`, the matrix to contract with.
  For each coordinate `d` it loads column `d` of `x0` (a `[1024, 1]` vector) and row `d` of `x1` (a `[1, 128]` vector),
  spreads both over `[1024, 128]`, subtracts and takes the absolute value: entry `(r, k)` is `|x0[r, d] - x1[d, k]|`.
  The ten such arrays are added one after another, the sum is subtracted from zero and exponentiated, and the
  `[1024, 128]` result is multiplied into `x2` on the matrix unit from a zero accumulator. So entry `(r, j)` of the
  block is `Σ_k lap (x0[r, ·]) (x1[·, k]) · x2[k, j]` (`Cert.Tmk.lap`): the contraction index of the product, a
  rank-one index set of extent 128, is re-indexed by `Fin 128`, and the left-grouped sum of ten gaps under `0 - ·` is the
  kernel entry by `Cert.Tmk.lap_of_left_sum`.
-/
import proofs.«157368_g10067403342211_week1_w1_198_2_alg».proof.Proof.Gen.KernelIdeal.Frame
import proofs.«157368_g10067403342211_week1_w1_198_2_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open Cert.Tmk (gap lap)

/-- The zero offsets of a load or store through a whole rank-two buffer. -/
theorem zero_offsets : (![0, 0] : Fin 2 → Nat) = fun _ => 0 := funext fun a => by fin_cases a <;> rfl

/-! ## One coordinate's gap -/

/-- A column `a : [1024, 1]` and a row `b : [1, 128]` spread over `[1024, 128]`, subtracted, in absolute value:
    entry `(r, k)` is the gap between `a[r, 0]` and `b[0, k]`. The shape cast of the row to its own shape changes nothing. -/
theorem gap_at (a : FVec Ideal S1024x1 .f32) (b : FVec Ideal S1x128 .f32)
    (h1 : S1024x1.Broadcasts S1024x128) (h2 : S1x128.ShapeCasts S1x128) (h3 : S1x128.Broadcasts S1024x128)
    (r : Fin 1024) (k : Fin 128) :
    absf (F := Ideal) (φ := .f32) (subf (broadcastTo S1024x128 a h1) (broadcastTo S1024x128 (shapeCast S1x128 b h2) h3)) (ix2 r k)
      = gap (a (ix2 r 0)) (b (ix2 0 k)) := by
  rw [shapeCast_self]
  show FloatOps.absf (FloatOps.subf (broadcastTo S1024x128 a h1 (ix2 r k)) (broadcastTo S1024x128 b h3 (ix2 r k))) = _
  rw [broadcastTo_apply a h1 (ix2 r k) (ix2 r 0) (fun x => by
        match x with
        | ⟨0, _⟩ => rfl
        | ⟨1, _⟩ => rfl),
      broadcastTo_apply b h3 (ix2 r k) (ix2 0 k) (fun x => by
        match x with
        | ⟨0, _⟩ => rfl
        | ⟨1, _⟩ => rfl)]
  rfl

/-- Column `o` of the block of input points, loaded as a `[1024, 1]` vector: row `r` of it is `X[r, o]`. -/
theorem column_load (X : Vec Ideal S1024x10 .f32) (o : Nat) (ho : o < 10)
    (inb : ∀ a, (![0, o] : Fin 2 → Nat) a + S1024x1.size a ≤ S1024x10.size a) (r : Fin 1024) :
    View.ld X (Rect.unit (s := S1024x10) ![0, o] S1024x1.size inb) (ix2 r 0) = X (ix2 r ⟨o, ho⟩) := by
  show X _ = X _
  refine congrArg X (funext fun a => Fin.ext ?_)
  match a with
  | ⟨0, _⟩ => simp only [LoadRect.idx_apply, Rect.off_unit, Rect.stride_unit, Nat.one_mul]; exact Nat.zero_add _
  | ⟨1, _⟩ => simp only [LoadRect.idx_apply, Rect.off_unit, Rect.stride_unit, Nat.one_mul]; rfl

/-- Row `o` of the transposed grid points, loaded as a `[1, 128]` vector: column `k` of it is `X[o, k]`. -/
theorem row_load (X : Vec Ideal S10x128 .f32) (o : Nat) (ho : o < 10)
    (inb : ∀ a, (![o, 0] : Fin 2 → Nat) a + S1x128.size a ≤ S10x128.size a) (k : Fin 128) :
    View.ld X (Rect.unit (s := S10x128) ![o, 0] S1x128.size inb) (ix2 0 k) = X (ix2 ⟨o, ho⟩ k) := by
  show X _ = X _
  refine congrArg X (funext fun a => Fin.ext ?_)
  match a with
  | ⟨0, _⟩ => simp only [LoadRect.idx_apply, Rect.off_unit, Rect.stride_unit, Nat.one_mul]; rfl
  | ⟨1, _⟩ => simp only [LoadRect.idx_apply, Rect.off_unit, Rect.stride_unit, Nat.one_mul]; exact Nat.zero_add _

/-! ## The distance, in two halves of five coordinates -/

/-- The first five coordinates' gaps, added from the left. -/
theorem first_five (v0 : FVec Ideal S1024x1 .f32) (v1 : FVec Ideal S1x128 .f32) (v7 : FVec Ideal S1024x1 .f32) (v8 : FVec Ideal S1x128 .f32)
    (v15 : FVec Ideal S1024x1 .f32) (v16 : FVec Ideal S1x128 .f32) (v23 : FVec Ideal S1024x1 .f32) (v24 : FVec Ideal S1x128 .f32)
    (v31 : FVec Ideal S1024x1 .f32) (v32 : FVec Ideal S1x128 .f32) (r : Fin 1024) (k : Fin 128) :
    k0_pay2 (F := Ideal) v0 v1 v7 v8 v15 v16 v23 v24 v31 v32 (ix2 r k)
      = gap (v0 (ix2 r 0)) (v1 (ix2 0 k)) + gap (v7 (ix2 r 0)) (v8 (ix2 0 k)) + gap (v15 (ix2 r 0)) (v16 (ix2 0 k))
        + gap (v23 (ix2 r 0)) (v24 (ix2 0 k)) + gap (v31 (ix2 r 0)) (v32 (ix2 0 k)) := by
  unfold k0_pay2
  simp only [addf_apply, gap_at]

/-- The last five coordinates' gaps, added one after another onto what the first five gave. -/
theorem last_five (v38 : FVec Ideal S1024x128 .f32) (v39 : FVec Ideal S1024x1 .f32) (v40 : FVec Ideal S1x128 .f32)
    (v47 : FVec Ideal S1024x1 .f32) (v48 : FVec Ideal S1x128 .f32) (v55 : FVec Ideal S1024x1 .f32) (v56 : FVec Ideal S1x128 .f32)
    (v63 : FVec Ideal S1024x1 .f32) (v64 : FVec Ideal S1x128 .f32) (v71 : FVec Ideal S1024x1 .f32) (v72 : FVec Ideal S1x128 .f32)
    (r : Fin 1024) (k : Fin 128) :
    k0_pay3 (F := Ideal) v38 v39 v40 v47 v48 v55 v56 v63 v64 v71 v72 (ix2 r k)
      = v38 (ix2 r k) + gap (v39 (ix2 r 0)) (v40 (ix2 0 k)) + gap (v47 (ix2 r 0)) (v48 (ix2 0 k)) + gap (v55 (ix2 r 0)) (v56 (ix2 0 k))
        + gap (v63 (ix2 r 0)) (v64 (ix2 0 k)) + gap (v71 (ix2 r 0)) (v72 (ix2 0 k)) := by
  unfold k0_pay3
  simp only [addf_apply, gap_at]

/-! ## The product with the matrix -/

/-- The left operand of the product is read at the output's row and the contraction index, -/
theorem lhs_row (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_contr (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- and the right operand at the contraction index and the output's column. -/
theorem rhs_contr (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_col (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The stored value at `(r, j)`: the distance array `v78` subtracted from zero and exponentiated, times the matrix
    `v82`, summed over the 128 grid points; the zero accumulator adds nothing. -/
theorem contract_at (v78 : FVec Ideal S1024x128 .f32) (v82 : FVec Ideal S128x128 .f32) (r : Fin 1024) (j : Fin 128) :
    k0_pay1 (F := Ideal) v78 v82 (ix2 r j) = ∑ k : Fin 128, Ideal.exp (0 - v78 (ix2 r k)) * v82 (ix2 k j) := by
  unfold k0_pay1
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 r j) ((ValueIdx.contrEquiv1 dot_S1024x128_S128x128_S1024x128_1_0_0_1_n_n 128 rfl rfl).symm k) = ix2 r k := funext fun a => Fin.ext (by
    match a with
    | ⟨0, _⟩ => exact lhs_row _ _
    | ⟨1, _⟩ => exact (lhs_contr _ _).trans hk)
  have er : dot_S1024x128_S128x128_S1024x128_1_0_0_1_n_n.rhsIdx (ix2 r j) ((ValueIdx.contrEquiv1 dot_S1024x128_S128x128_S1024x128_1_0_0_1_n_n 128 rfl rfl).symm k) = ix2 k j := funext fun a => Fin.ext (by
    match a with
    | ⟨0, _⟩ => exact (rhs_contr _ _).trans hk
    | ⟨1, _⟩ => exact rhs_col _ _)
  rw [el, er]
  show Ideal.exp (Ideal.ofBits .f32 0x00000000#32 - v78 (ix2 r k)) * v82 (ix2 k j) = _
  rw [Ideal.ofBits_zero_f32]

/-! ## The block -/

/-- THE BLOCK a grid point leaves, at row `r` and column `j`: the kernel row of the block's input point `r` against the
    128 grid points (read down the columns of the transposed array), contracted with column `j` of the matrix. -/
theorem block_at (x0 : Vec Ideal S1024x10 .f32) (x1 : Vec Ideal S10x128 .f32) (x2 : Vec Ideal S128x128 .f32)
    (r : Fin 1024) (j : Fin 128) :
    out0_3 (F := Ideal) x0 x1 x2 (ix2 r j)
      = ∑ k : Fin 128, lap (fun d => x0 (ix2 r d)) (fun d => x1 (ix2 d k)) * x2 (ix2 k j) := by
  unfold out0_3
  rw [View.canon_unit_zero zero_offsets, contract_at]
  refine Finset.sum_congr rfl fun k _ => ?_
  rw [last_five, first_five, View.ld_unit_zero (S := S128x128) zero_offsets]
  rw [column_load x0 0 (by decide), column_load x0 1 (by decide), column_load x0 2 (by decide), column_load x0 3 (by decide),
    column_load x0 4 (by decide), column_load x0 5 (by decide), column_load x0 6 (by decide), column_load x0 7 (by decide),
    column_load x0 8 (by decide), column_load x0 9 (by decide),
    row_load x1 0 (by decide), row_load x1 1 (by decide), row_load x1 2 (by decide), row_load x1 3 (by decide),
    row_load x1 4 (by decide), row_load x1 5 (by decide), row_load x1 6 (by decide), row_load x1 7 (by decide),
    row_load x1 8 (by decide), row_load x1 9 (by decide)]
  exact congrArg (· * x2 (ix2 k j)) (Cert.Tmk.lap_of_left_sum (fun d => x0 (ix2 r d)) (fun d => x1 (ix2 d k)))

end Cert.KernelIdeal.Block

end
-- ==== Proof.Array.lean ====
/-
  From the blocks to the array: after the kernel's run the result array is `Cert.Tmk.G` of the three arguments.

  The grid has 128 points. Point `t` stages rows `1024 t … 1024 t + 1023` of the input points, the whole transposed
  grid-point array (which the host made from the second argument before the region: entry `(d, k)` of it is
  `p[k, d]`) and the whole matrix, and writes back rows `1024 t … 1024 t + 1023` of the result. By `Block.block_at`
  entry `(r, j)` of what it writes is `Σ_k lap (x0[r, ·]) (x1[·, k]) · x2[k, j]` of the staged blocks, which is
  `G x p C` at row `1024 t + r`, column `j`: the block written at `t` is block `t` of `G x p C`. The 128 row blocks
  tile the array (row `i` lies in block `i / 1024`), so the array ends holding `G x p C`.
-/
import proofs.«157368_g10067403342211_week1_w1_198_2_alg».proof.Proof.Gen.KernelIdeal.Value
import proofs.«157368_g10067403342211_week1_w1_198_2_alg».proof.Proof.Block
import proofs.«157368_g10067403342211_week1_w1_198_2_alg».proof.Proof.Spec
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Array

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.Tmk (gap lap G)

variable (m : (ℓ : Loc nD τ sig) → Buf (Elt Ideal) ℓ) (ρ : Dev nD → PrngReg)

/-! ## The three arguments, and the array the host transposes -/

/-- The input points, the grid points and the matrix as launched on core `c`. -/
abbrev points (c : Dev nD) : S131072x10.Idx → EReal := m ((c : Thread nD τ).loc main_arg0)
abbrev gridPoints (c : Dev nD) : S128x10.Idx → EReal := m ((c : Thread nD τ).loc main_arg1)
abbrev matrix (c : Dev nD) : S128x128.Idx → EReal := m ((c : Thread nD τ).loc main_arg2)

/-- What the region finds in the array window 1 stages: the host's transpose of the grid points. -/
theorem staged_transpose (c : Dev nD) :
    (V m c main_v0 : S10x128.Idx → EReal) = transpose S10x128 [1, 0] (gridPoints m c) Facts₀.transposes_S128x10_S10x128_1_0 := by
  dsimp only [Gen.V, Gen.hostOps0]; after_results

/-- Entry `(d, k)` of the transposed array is coordinate `d` of grid point `k`. -/
theorem staged_transpose_at (c : Dev nD) (d : Fin 10) (k : Fin 128) :
    (V m c main_v0 : S10x128.Idx → EReal) (ix2 d k) = gridPoints m c (ix2 k d) := by
  rw [staged_transpose]
  exact transpose_apply [1, 0] (gridPoints m c) Facts₀.transposes_S128x10_S10x128_1_0 (ix2 d k) (ix2 k d) (fun b => by
    match b with
    | ⟨0, _⟩ => rfl
    | ⟨1, _⟩ => rfl)

/-! ## The windows' blocks -/

/-- The printed index maps, decided over the 128 grid points: the input points' window and the result's move down one
    row block per point; the other two windows stay at block zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of input points staged at point `t`: local row `y 0` is row `1024 t + y 0` of the argument. -/
theorem points_block (c : Dev nD) (t : Fin cfg0.N) (y : S1024x10.Idx) (i : S131072x10.Idx)
    (h0 : (i 0).val = t.val * 1024 + (y 0).val) (h1 : (i 1).val = (y 1).val) :
    (iblk m c 0 t : S1024x10.Idx → EReal) y = points m c i := by
  obtain ⟨e0, e1, -⟩ := index_maps t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * (y 0).val = (i 0).val; rw [e0, h0]; omega
  | ⟨1, _⟩ => show win0_0.index t (1 : Fin 2) * 10 + 1 * (y 1).val = (i 1).val; rw [e1, h1]; omega

/-- The transposed grid points are staged whole at every point. -/
theorem transposed_block (c : Dev nD) (t : Fin cfg0.N) (y : S10x128.Idx) :
    (iblk m c 1 t : S10x128.Idx → EReal) y = (V m c main_v0 : S10x128.Idx → EReal) y := by
  obtain ⟨-, -, e2, e3, -⟩ := index_maps t
  unfold iblk
  rw [View.read_apply]
  show V m c main_v0 _ = _
  refine congrArg _ (funext fun a => Fin.ext ?_)
  match a with
  | ⟨0, _⟩ => show win0_1.index t (0 : Fin 2) * 10 + 1 * (y 0).val = (y 0).val; rw [e2]; omega
  | ⟨1, _⟩ => show win0_1.index t (1 : Fin 2) * 128 + 1 * (y 1).val = (y 1).val; rw [e3]; omega

/-- The matrix is staged whole at every point. -/
theorem matrix_block (c : Dev nD) (t : Fin cfg0.N) (y : S128x128.Idx) :
    (iblk m c 2 t : S128x128.Idx → EReal) y = matrix m c y := by
  obtain ⟨-, -, -, -, e4, e5, -⟩ := index_maps t
  unfold iblk
  rw [View.read_apply]
  show V m c main_arg2 _ = _
  rw [V_main_arg2]
  refine congrArg _ (funext fun a => Fin.ext ?_)
  match a with
  | ⟨0, _⟩ => show win0_2.index t (0 : Fin 2) * 128 + 1 * (y 0).val = (y 0).val; rw [e4]; omega
  | ⟨1, _⟩ => show win0_2.index t (1 : Fin 2) * 128 + 1 * (y 1).val = (y 1).val; rw [e5]; omega

/-! ## What a point writes back -/

/-- Local entry `(r, j)` of the result's block at point `t` sits at row `1024 t + r`, column `j` of the array. -/
theorem result_block_index (t : Fin cfg0.N) (r : Fin 1024) (j : Fin 128) (n : Fin 131072) (hn : n.val = t.val * 1024 + r.val) :
    ((cfg0.win 3).blk t).view.emb (ix2 r j) = (ix2 n j : S131072x128.Idx) := by
  obtain ⟨-, -, -, -, -, -, e6, e7⟩ := index_maps t
  funext a
  apply Fin.ext
  match a with
  | ⟨0, _⟩ => show win0_3.index t (0 : Fin 2) * 1024 + 1 * r.val = n.val; rw [e6, hn]; omega
  | ⟨1, _⟩ => show win0_3.index t (1 : Fin 2) * 128 + 1 * j.val = j.val; rw [e7]; omega

/-- WHAT POINT `t` WRITES BACK is block `t` of `G` of the three arguments. -/
theorem flushed_eq (c : Dev nD) (t : Fin cfg0.N) :
    (dats m 0 c).flushed 3 t = ((cfg0.win 3).blk t).view.read (Elt Ideal) (G (points m c) (gridPoints m c) (matrix m c)) := by
  rw [Value.flushed3]
  funext y
  obtain ⟨r, j, rfl⟩ : ∃ (r : Fin 1024) (j : Fin 128), y = ix2 r j := ⟨y 0, y 1, eq_ix2 y⟩
  have hN : cfg0.N = 128 := N_0
  have ht : t.val < 128 := hN ▸ t.isLt
  let n : Fin 131072 := ⟨t.val * 1024 + r.val, by have := r.isLt; omega⟩
  show out0_3 (iblk m c 0 t) (iblk m c 1 t) (iblk m c 2 t) (ix2 r j)
    = G (points m c) (gridPoints m c) (matrix m c) (((cfg0.win 3).blk t).view.emb (ix2 r j))
  rw [result_block_index t r j n rfl, Cert.Tmk.G_apply]
  refine (Block.block_at (iblk m c 0 t) (iblk m c 1 t) (iblk m c 2 t) r j).trans ?_
  refine Finset.sum_congr rfl fun k _ => ?_
  have hx : (fun d : Fin 10 => (iblk m c 0 t : S1024x10.Idx → EReal) (ix2 r d)) = fun d => points m c (ix2 n d) :=
    funext fun d => points_block m c t (ix2 r d) (ix2 n d) rfl rfl
  have hp : (fun d : Fin 10 => (iblk m c 1 t : S10x128.Idx → EReal) (ix2 d k)) = fun d => gridPoints m c (ix2 k d) :=
    funext fun d => (transposed_block m c t (ix2 d k)).trans (staged_transpose_at m c d k)
  have hc : (iblk m c 2 t : S128x128.Idx → EReal) (ix2 k j) = matrix m c (ix2 k j) := matrix_block m c t (ix2 k j)
  rw [hx, hp, hc]

/-! ## The cover, the array and the run -/

/-- An index of the result array is in point `t`'s block iff each coordinate is in the block's range on its axis. -/
theorem mem_result_block (t : Fin cfg0.N) (i : S131072x128.Idx) :
    i ∈ ((cfg0.win 3).blk t).view.set ↔ ∀ a : Fin 2, win0_3.index t a * S1024x128.size a ≤ (i a).val
      ∧ (i a).val < win0_3.index t a * S1024x128.size a + S1024x128.size a := by
  show i ∈ ((View.whole main_v1).slice (win0_3.rect t)).set ↔ _
  rw [View.set_slice_whole, Rect.mem_set_unit]
  exact Iff.rfl

/-- The 128 row blocks tile the array: row `i` lies in the block of point `i / 1024`, and every point writes back. -/
theorem blocks_cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : cfg0.N = 128 := N_0
  have hlt : (i 0).val / 1024 < cfg0.N := by rw [hN]; omega
  obtain ⟨-, -, -, -, -, -, e6, e7⟩ := index_maps ⟨(i 0).val / 1024, hlt⟩
  refine ⟨⟨(i 0).val / 1024, hlt⟩, flush0_3 _, ?_⟩
  rw [mem_result_block]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, hlt⟩ (1 : Fin 2) * 128 ≤ (i 1).val
      ∧ (i 1).val < win0_3.index ⟨(i 0).val / 1024, hlt⟩ (1 : Fin 2) * 128 + 128
    rw [e7]; omega

/-- THE ARRAY after the run is `G` of the three arguments. -/
theorem final (c : Dev nD) : (dats m 0 c).arrAt 3 cfg0.N = G (points m c) (gridPoints m c) (matrix m c) :=
  (dats m 0 c).arrAt_eq_of_cover 3 (G (points m c) (gridPoints m c) (matrix m c)) (fun t _ => flushed_eq m c t) blocks_cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = G (points m c) (gridPoints m c) (matrix m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Array

end
-- ==== Proof.Reference.lean ====
/-
  The reference's result is the specification `Cert.Tmk.G` of its three arguments.

  The reference spreads the input points over `[131072, 1, 10]` and the grid points over `[1, 128, 10]`, broadcasts both
  to `[131072, 128, 10]`, subtracts, takes absolute values and sums the last axis from zero: entry `(n, k)` of the
  distance array is `0 + Σ_d |x[n, d] - p[k, d]|`. It negates, divides by the lengthscale `1`, exponentiates, and
  contracts with the matrix: entry `(n, j)` of the result is `Σ_k exp ((-(0 + Σ_d …)) / 1) · C[k, j]`. Reading the
  operations at an index one after another, the composed index maps pick `x[n, d]`, `p[k, d]` and `C[k, j]`, the
  two literals are the extended reals `0` and `1`, and the kernel entry is `Cert.Tmk.lap` by
  `Cert.Tmk.lap_of_scaled_sum`.
-/
import proofs.«157368_g10067403342211_week1_w1_198_2_alg».proof.Proof.Gen.ReferenceIdeal.Read
import proofs.«157368_g10067403342211_week1_w1_198_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Read Idealize.ShloMosaic Idealize.ShloMosaic.ValueIdx
open Cert.Tmk (gap lap G)

/-- The reference's last stage, the contraction with the matrix, is `G` of the three arguments. -/
theorem result_eq (x : (⟨S131072x10, .f32⟩ : BufTy).Contents (Elt Ideal)) (p : (⟨S128x10, .f32⟩ : BufTy).Contents (Elt Ideal))
    (C : (⟨S128x128, .f32⟩ : BufTy).Contents (Elt Ideal)) :
    val_main_v11 (F := Ideal) x p C = G x p C := by
  funext i
  obtain ⟨n, j, rfl⟩ : ∃ (n : Fin 131072) (j : Fin 128), i = ix2 n j := ⟨i 0, i 1, eq_ix2 i⟩
  rw [val_main_v11_apply, Cert.Tmk.G_apply]
  refine Finset.sum_congr rfl fun k _ => ?_
  have er : ridx_main_v11 (ix2 n j) k = ix2 k j := funext fun a => Fin.ext (by
    match a with
    | ⟨0, _⟩ => rfl
    | ⟨1, _⟩ => rfl)
  have ex : ∀ d : Fin 10, idx_main_v0 (idx_main_v2 (idx_main_v6 (lidx_main_v11 (ix2 n j) k) d)) = ix2 n d := fun d =>
    funext fun a => Fin.ext (by
      match a with
      | ⟨0, _⟩ => rfl
      | ⟨1, _⟩ => rfl)
  have ep : ∀ d : Fin 10, idx_main_v1 (idx_main_v3 (idx_main_v6 (lidx_main_v11 (ix2 n j) k) d)) = ix2 k d := fun d =>
    funext fun a => Fin.ext (by
      match a with
      | ⟨0, _⟩ => rfl
      | ⟨1, _⟩ => rfl)
  rw [er]
  refine congrArg (· * C (ix2 k j)) ?_
  rw [val_main_v10_apply, val_main_v9_apply, val_main_v7_apply, val_main_v6_apply, val_main_v8_apply, val_main_cst_0_apply,
    val_main_cst_apply]
  simp only [val_main_v5_apply, val_main_v4_apply, val_main_v2_apply, val_main_v3_apply, val_main_v0_apply, val_main_v1_apply,
    ex, ep]
  show Ideal.exp (Ideal.div (-(Ideal.ofBits .f32 0x00000000#32 + ∑ d : Fin 10, gap (x (ix2 n d)) (p (ix2 k d))))
    (Ideal.ofBits .f32 0x3F800000#32)) = _
  rw [Ideal.ofBits_zero_f32, Ideal.ofBits_one_f32]
  exact Cert.Tmk.lap_of_scaled_sum (fun d => x (ix2 n d)) (fun d => p (ix2 k d))

end Cert.ReferenceIdeal.RefValue

end
-- ==== Proof.lean ====
/-
  The fused Laplace-kernel product against its jnp reference, over the extended reals.

  Both programs take input points `x : [131072, 10]`, grid points `p : [128, 10]` and a matrix `C : [128, 128]`, and both
  compute, at row `n` and column `j`,

      Σ_k  exp (-(Σ_d |x[n, d] - p[k, d]|)) · C[k, j]                                  (`Cert.Tmk.G`, Proof/Spec.lean).

  The kernel walks 128 row blocks of 1024 input points; at each it adds the ten coordinate gaps `|x[r, d] - pᵀ[d, k]|`
  one after another against the host-transposed grid points, subtracts the sum from zero, exponentiates, and multiplies
  into `C` from a zero accumulator (Proof/Block.lean: one block, entry by entry; Proof/Array.lean: the blocks tile the
  result array). The reference broadcasts both point sets to `[131072, 128, 10]`, sums the gaps over the last axis from
  zero, negates, divides by the lengthscale `1`, exponentiates and contracts with `C` (Proof/Reference.lean). The two
  agree on every extended real, finite or not: regrouping a sum, `0 - a = -a`, `a / 1 = a` and a zero accumulator hold
  everywhere, so the finiteness precondition is not used. The idealization pass rewrote nothing in the kernel, so
  `preserves` has no conjunct; the kernels' frames are the generated ones, and the reference's frame is its run with the
  result dropped.
-/
import proofs.«157368_g10067403342211_week1_w1_198_2_alg».proof.Defs
import proofs.«157368_g10067403342211_week1_w1_198_2_alg».proof.Proof.Gen.Kernel
import proofs.«157368_g10067403342211_week1_w1_198_2_alg».proof.Proof.Gen.Kernel.Skeleton
import proofs.«157368_g10067403342211_week1_w1_198_2_alg».proof.Proof.Gen.Kernel.Launch
import proofs.«157368_g10067403342211_week1_w1_198_2_alg».proof.Proof.Gen.Kernel.Points
import proofs.«157368_g10067403342211_week1_w1_198_2_alg».proof.Proof.Gen.Kernel.Frame
import proofs.«157368_g10067403342211_week1_w1_198_2_alg».proof.Proof.Gen.KernelIdeal
import proofs.«157368_g10067403342211_week1_w1_198_2_alg».proof.Proof.Gen.KernelIdeal.Skeleton
import proofs.«157368_g10067403342211_week1_w1_198_2_alg».proof.Proof.Gen.KernelIdeal.Launch
import proofs.«157368_g10067403342211_week1_w1_198_2_alg».proof.Proof.Gen.KernelIdeal.Points
import proofs.«157368_g10067403342211_week1_w1_198_2_alg».proof.Proof.Gen.KernelIdeal.Frame
import proofs.«157368_g10067403342211_week1_w1_198_2_alg».proof.Proof.Gen.ReferenceIdeal
import proofs.«157368_g10067403342211_week1_w1_198_2_alg».proof.Proof.Gen.Pre_finite_inputs
import proofs.«157368_g10067403342211_week1_w1_198_2_alg».proof.Proof.Gen.KernelIdeal.Value
import proofs.«157368_g10067403342211_week1_w1_198_2_alg».proof.Proof.Gen.ReferenceIdeal.Run
import proofs.«157368_g10067403342211_week1_w1_198_2_alg».proof.Proof.Gen.ReferenceIdeal.Read
import proofs.«157368_g10067403342211_week1_w1_198_2_alg».proof.Proof.Spec
import proofs.«157368_g10067403342211_week1_w1_198_2_alg».proof.Proof.Block
import proofs.«157368_g10067403342211_week1_w1_198_2_alg».proof.Proof.Array
import proofs.«157368_g10067403342211_week1_w1_198_2_alg».proof.Proof.Reference
import Idealize.ShloMosaic.Adequacy
import Idealize.ShloMosaic.Init

noncomputable section

namespace Cert.Proof

open Idealize.ShloMosaic Idealize.SL.Sem

/-- The kernel as printed runs, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is fourteen host operations in a row: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the three arguments the kernel's result array ends at `G x p C` (Proof/Array.lean) and the
    reference's at its last stage of the same arguments, which is `G x p C` too (Proof/Reference.lean). -/
theorem algebraic : Cert.algebraic_KernelIdeal_ReferenceIdeal := by
  intro m ρ m' ρ' _ hagree
  refine ⟨fun c => Cert.Tmk.G (Cert.KernelIdeal.Array.points m c) (Cert.KernelIdeal.Array.gridPoints m c)
    (Cert.KernelIdeal.Array.matrix m c), Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
